-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S524288x128 : Shape := ⟨2, ![524288, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S524288 : Shape := ⟨1, ![524288]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S524288x128 : S_.BroadcastsInDim S524288x128 (![] : Fin 0 → Fin S524288x128.rank)
  reducesTo_S524288x128_S_d0_1 : S524288x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S524288 : S_.BroadcastsInDim S524288 (![] : Fin 0 → Fin S524288.rank)
  reducesTo_S524288_S_d0 : S524288.ReducesTo [0] S_

variable [Facts]

def fn_part3 {F : FTy → Type} [FloatOps F] (main_arg10 : IVec S524288 32) (main_v48 : IVec S_ 1) (main_v50 : IVec S524288 1) : IVec S_ 1 :=
  let main_c_19 : IVec S_ 32 := constantI S_ 32 2048#32
  let main_v51 : IVec S524288 32 := broadcastInDim S524288 ![] bcast_S_S524288 main_c_19
  let main_v52 : IVec S524288 1 := cmpi .slt main_arg10 main_v51
  let main_v53 : IVec S524288 1 := andi main_v50 main_v52
  let main_c_20 : IVec S_ 1 := constantI S_ 1 1#1
  let main_v54 : IVec S_ 1 := (fun x v => Host.reduce IntOp.andi x v reducesTo_S524288_S_d0 h_S_) main_v53 main_c_20
  let main_v55 : IVec S_ 1 := andi main_v48 main_v54
  main_v55

def fn_part2 {F : FTy → Type} [FloatOps F] (main_arg7 : FVec F S256 .f32) (main_arg8 : FVec F S256x1 .f32) (main_arg9 : FVec F S1 .f32) (main_arg10 : IVec S524288 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg8
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S524288 32 := broadcastInDim S524288 ![] bcast_S_S524288 main_c_18
  let main_v50 : IVec S524288 1 := cmpi .sge main_arg10 main_v49
  fn_part3 (F := F) main_arg10 main_v48 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x1 .f32) (main_arg9 : FVec F S1 .f32) (main_arg10 : IVec S524288 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x128 .f32) (main_arg1 : FVec F S524288x128 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x1 .f32) (main_arg9 : FVec F S1 .f32) (main_arg10 : IVec S524288 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_v13 main_v16
-- ==== Kernel.lean ====
abbrev S2048x128 : Shape := ⟨2, ![2048, 128]⟩
abbrev S524288x128 : Shape := ⟨2, ![524288, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S524288 : Shape := ⟨1, ![524288]⟩
abbrev S1x256 : Shape := ⟨2, ![1, 256]⟩
abbrev S1x1 : Shape := ⟨2, ![1, 1]⟩
abbrev S524288x1 : Shape := ⟨2, ![524288, 1]⟩
abbrev S524288x256 : Shape := ⟨2, ![524288, 256]⟩
abbrev S2048x1 : Shape := ⟨2, ![2048, 1]⟩
abbrev S2048x256 : Shape := ⟨2, ![2048, 256]⟩
abbrev S2048 : Shape := ⟨1, ![2048]⟩
abbrev S2048x2048 : Shape := ⟨2, ![2048, 2048]⟩
abbrev S_ : Shape := ⟨0, ![]⟩

abbrev nBuf : Space → Nat
  | .hbm => 37
  | .vmem => 17
  | .smem => 0
  | _ => 0

abbrev bufTy : (tb : Table) → Fin (tcTables nBuf tb) → BufTy
  | .hbm, ⟨0, _⟩ => ⟨S2048x128, .f32⟩
  | .hbm, ⟨1, _⟩ => ⟨S524288x128, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S524288, .i32⟩
  | .hbm, ⟨11, _⟩ => ⟨S256x256, .bf16⟩
  | .hbm, ⟨12, _⟩ => ⟨S256x256, .bf16⟩
  | .hbm, ⟨13, _⟩ => ⟨S256x256, .bf16⟩
  | .hbm, ⟨14, _⟩ => ⟨S256x1, .bf16⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x1, .f32⟩
  | .hbm, ⟨19, _⟩ => ⟨S524288x1, .i32⟩
  | .hbm, ⟨20, _⟩ => ⟨S524288x256, .f32⟩
  | .hbm, ⟨21, _⟩ => ⟨S524288x1, .f32⟩
  | .hbm, ⟨22, _⟩ => ⟨S524288, .f32⟩
  | .hbm, ⟨23, _⟩ => ⟨S_, .f32⟩
  | .hbm, ⟨24, _⟩ => ⟨S2048, .f32⟩
  | .hbm, ⟨25, _⟩ => ⟨S524288x1, .i32⟩
  | .hbm, ⟨26, _⟩ => ⟨S2048, .f32⟩
  | .hbm, ⟨27, _⟩ => ⟨S_, .i32⟩
  | .hbm, ⟨28, _⟩ => ⟨S524288, .i32⟩
  | .hbm, ⟨29, _⟩ => ⟨S524288, .i1⟩
  | .hbm, ⟨30, _⟩ => ⟨S_, .i32⟩
  | .hbm, ⟨31, _⟩ => ⟨S524288, .i32⟩
  | .hbm, ⟨32, _⟩ => ⟨S524288, .i32⟩
  | .hbm, ⟨33, _⟩ => ⟨S524288, .i32⟩
  | .hbm, ⟨34, _⟩ => ⟨S524288x1, .i32⟩
  | .hbm, ⟨35, _⟩ => ⟨S524288, .f32⟩
  | .hbm, ⟨36, _⟩ => ⟨S524288, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x1, .i32⟩
  | .local _ .vmem, ⟨4, _⟩ => ⟨S2048x1, .i32⟩
  | .local _ .vmem, ⟨5, _⟩ => ⟨S256x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x1, .bf16⟩
  | .local _ .vmem, ⟨12, _⟩ => ⟨S1x1, .f32⟩
  | .local _ .vmem, ⟨13, _⟩ => ⟨S2048x256, .f32⟩
  | .local _ .vmem, ⟨14, _⟩ => ⟨S2048x256, .f32⟩
  | .local _ .vmem, ⟨15, _⟩ => ⟨S2048x1, .f32⟩
  | .local _ .vmem, ⟨16, _⟩ => ⟨S2048x1, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S256_S1x256 : S256.ShapeCasts S1x256
  shapeCasts_S1_S1x1 : S1.ShapeCasts S1x1
  shapeCasts_S524288_S524288x1 : S524288.ShapeCasts S524288x1
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  iota_S2048x2048_d1_w32 : S2048x2048.Iotas .tc 32 [1]
  shapeCasts_S2048_S2048x1 : S2048.ShapeCasts S2048x1
  broadcasts_S2048x1_S2048x2048 : S2048x1.Broadcasts S2048x2048
  natLt_1_32 : 1 < 32
  inb_S2048x128_S2048x128_0_0 : ∀ a, (![0, 0] : Fin 2 → Nat) a + S2048x128.size a ≤ S2048x128.size a
  h_S2048x128 : 0 < S2048x128.numel
  concatenates_S2048x128_S2048x128_S2048x256_d1 : Shape.Concatenates [S2048x128, S2048x128] S2048x256 1
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  shapeCasts_S524288x1_S524288 : S524288x1.ShapeCasts S524288
  bcast_S_S2048 : S_.BroadcastsInDim S2048 (![] : Fin 0 → Fin S2048.rank)
  bcast_S524288_S524288x1_0 : S524288.BroadcastsInDim S524288x1 (![0] : Fin 1 → Fin S524288x1.rank)
  bcast_S_S524288 : S_.BroadcastsInDim S524288 (![] : Fin 0 → Fin S524288.rank)
  dot_S2048x2048_S2048x128_S2048x128_1_0_0_1_n_n_wf : DotDims.WF S2048x2048 S2048x128 S2048x128 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  scatter_S2048_S524288x1_S524288_n_0_0_1_wf : ScatterDims.WF S2048 S524288x1 S524288 [] [0] [0] 1
  gather_S2048_S524288x1_S524288_n_0_n_n_0_1_1_wf : GatherDims.WF S2048 S524288x1 S524288 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S2048x128.size a
  hwx0_0 : ∀ i : grid0.Coords, EltTy.bits .f32 = 32 ∨ (Rect.block (s := S2048x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S524288x128.size a
  hwx0_1 : ∀ i : grid0.Coords, EltTy.bits .f32 = 32 ∨ (Rect.block (s := S524288x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S524288x1.size a
  hwx0_2 : ∀ i : grid0.Coords, EltTy.bits .i32 = 32 ∨ (Rect.block (s := S524288x1) S2048x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .bf16 = 32 ∨ (Rect.block (s := S256x1) S256x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S524288x256.size a
  hwx0_11 : ∀ i : grid0.Coords, EltTy.bits .f32 = 32 ∨ (Rect.block (s := S524288x256) S2048x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x1.size a ≤ S524288x1.size a
  hwx0_12 : ∀ i : grid0.Coords, EltTy.bits .f32 = 32 ∨ (Rect.block (s := S524288x1) S2048x1.size (cc0_transform_12 i) (hinb0_12 i)).WholeWords (EltTy.packing .f32)

variable [Facts₀]

def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def scatter_S2048_S524288x1_S524288_n_0_0_1 : ScatterDims S2048 S524288x1 S524288 where
  updateWindowDims := []
  insertedWindowDims := [0]
  scatterDimsToOperandDims := [0]
  indexVectorDim := 1
  wf := scatter_S2048_S524288x1_S524288_n_0_0_1_wf
def gather_S2048_S524288x1_S524288_n_0_n_n_0_1_1 : GatherDims S2048 S524288x1 S524288 where
  offsetDims := []
  collapsedSliceDims := [0]
  operandBatchingDims := []
  startIndicesBatchingDims := []
  startIndexMap := [0]
  indexVectorDim := 1
  sliceSizes := ![1]
  wf := gather_S2048_S524288x1_S524288_n_0_n_n_0_1_1_wf

abbrev win0_0 : Pipeline.Window sig grid0 :=
  Pipeline.Window.ofSpec (Memref.whole main_arg0) S2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9_0) S2048x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_1) S2048x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2048x128 : Shape := ⟨2, ![2048, 128]⟩
abbrev S524288x128 : Shape := ⟨2, ![524288, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S524288 : Shape := ⟨1, ![524288]⟩
abbrev S_ : Shape := ⟨0, ![]⟩
abbrev S524288x1 : Shape := ⟨2, ![524288, 1]⟩
abbrev S524288x256 : Shape := ⟨2, ![524288, 256]⟩
abbrev S1x256 : Shape := ⟨2, ![1, 256]⟩
abbrev S1x1 : Shape := ⟨2, ![1, 1]⟩
abbrev S2048 : Shape := ⟨1, ![2048]⟩

abbrev nBuf : Space → Nat
  | .hbm => 62
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S524288x128, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S524288, .i32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x128, .f32⟩
  | .hbm, ⟨20, _⟩ => ⟨S524288x256, .f32⟩
  | .hbm, ⟨21, _⟩ => ⟨S524288x256, .f32⟩
  | .hbm, ⟨22, _⟩ => ⟨S1x256, .f32⟩
  | .hbm, ⟨23, _⟩ => ⟨S524288x256, .f32⟩
  | .hbm, ⟨24, _⟩ => ⟨S524288x256, .f32⟩
  | .hbm, ⟨25, _⟩ => ⟨S_, .f32⟩
  | .hbm, ⟨26, _⟩ => ⟨S524288x256, .f32⟩
  | .hbm, ⟨27, _⟩ => ⟨S524288x256, .f32⟩
  | .hbm, ⟨28, _⟩ => ⟨S524288x256, .f32⟩
  | .hbm, ⟨29, _⟩ => ⟨S1x256, .f32⟩
  | .hbm, ⟨30, _⟩ => ⟨S524288x256, .f32⟩
  | .hbm, ⟨31, _⟩ => ⟨S524288x256, .f32⟩
  | .hbm, ⟨32, _⟩ => ⟨S_, .f32⟩
  | .hbm, ⟨33, _⟩ => ⟨S524288x256, .f32⟩
  | .hbm, ⟨34, _⟩ => ⟨S524288x256, .f32⟩
  | .hbm, ⟨35, _⟩ => ⟨S524288x256, .f32⟩
  | .hbm, ⟨36, _⟩ => ⟨S1x256, .f32⟩
  | .hbm, ⟨37, _⟩ => ⟨S524288x256, .f32⟩
  | .hbm, ⟨38, _⟩ => ⟨S524288x256, .f32⟩
  | .hbm, ⟨39, _⟩ => ⟨S_, .f32⟩
  | .hbm, ⟨40, _⟩ => ⟨S524288x256, .f32⟩
  | .hbm, ⟨41, _⟩ => ⟨S524288x256, .f32⟩
  | .hbm, ⟨42, _⟩ => ⟨S524288x1, .f32⟩
  | .hbm, ⟨43, _⟩ => ⟨S1x1, .f32⟩
  | .hbm, ⟨44, _⟩ => ⟨S524288x1, .f32⟩
  | .hbm, ⟨45, _⟩ => ⟨S524288x1, .f32⟩
  | .hbm, ⟨46, _⟩ => ⟨S524288, .f32⟩
  | .hbm, ⟨47, _⟩ => ⟨S524288, .f32⟩
  | .hbm, ⟨48, _⟩ => ⟨S_, .f32⟩
  | .hbm, ⟨49, _⟩ => ⟨S2048, .f32⟩
  | .hbm, ⟨50, _⟩ => ⟨S524288x1, .i32⟩
  | .hbm, ⟨51, _⟩ => ⟨S2048, .f32⟩
  | .hbm, ⟨52, _⟩ => ⟨S_, .i32⟩
  | .hbm, ⟨53, _⟩ => ⟨S524288, .i32⟩
  | .hbm, ⟨54, _⟩ => ⟨S524288, .i1⟩
  | .hbm, ⟨55, _⟩ => ⟨S_, .i32⟩
  | .hbm, ⟨56, _⟩ => ⟨S524288, .i32⟩
  | .hbm, ⟨57, _⟩ => ⟨S524288, .i32⟩
  | .hbm, ⟨58, _⟩ => ⟨S524288, .i32⟩
  | .hbm, ⟨59, _⟩ => ⟨S524288x1, .i32⟩
  | .hbm, ⟨60, _⟩ => ⟨S524288, .f32⟩
  | .hbm, ⟨61, _⟩ => ⟨S524288, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_cst : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call2_cst : Ref sig .tc := ⟨.hbm, 39, rfl⟩
abbrev main_call2_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_1 : Ref sig .tc := ⟨.hbm, 52, rfl⟩
abbrev main_v32 : Ref sig .tc := ⟨.hbm, 53, rfl⟩
abbrev main_v33 : Ref sig .tc := ⟨.hbm, 54, rfl⟩
abbrev main_c_2 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x256_d1 : Shape.Concatenates [S524288x128, S524288x128] S524288x256 1
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  bcast_S_S2048 : S_.BroadcastsInDim S2048 (![] : Fin 0 → Fin S2048.rank)
  gather_S2048x128_S524288x1_S524288x128_1_0_n_n_0_1_1128_wf : GatherDims.WF S2048x128 S524288x1 S524288x128 [1] [0] [] [0] [] 1 ![1, 128]
  dot_S524288x256_S256x256_S524288x256_1_0_0_1_n_n_wf : DotDims.WF S524288x256 S256x256 S524288x256 [1] [0] [0] [1] [] []
  dot_S524288x256_S256x1_S524288x1_1_0_0_1_n_n_wf : DotDims.WF S524288x256 S256x1 S524288x1 [1] [0] [0] [1] [] []
  scatter_S2048_S524288x1_S524288_n_0_0_1_wf : ScatterDims.WF S2048 S524288x1 S524288 [] [0] [0] 1
  gather_S2048_S524288x1_S524288_n_0_n_n_0_1_1_wf : GatherDims.WF S2048 S524288x1 S524288 [] [0] [] [0] [] 1 ![1]

variable [Facts₀]

def gather_S2048x128_S524288x1_S524288x128_1_0_n_n_0_1_1128 : GatherDims S2048x128 S524288x1 S524288x128 where
  offsetDims := [1]
  collapsedSliceDims := [0]
  operandBatchingDims := []
  startIndicesBatchingDims := []
  startIndexMap := [0]
  indexVectorDim := 1
  sliceSizes := ![1, 128]
  wf := gather_S2048x128_S524288x1_S524288x128_1_0_n_n_0_1_1128_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf
def scatter_S2048_S524288x1_S524288_n_0_0_1 : ScatterDims S2048 S524288x1 S524288 where
  updateWindowDims := []
  insertedWindowDims := [0]
  scatterDimsToOperandDims := [0]
  indexVectorDim := 1
  wf := scatter_S2048_S524288x1_S524288_n_0_0_1_wf
def gather_S2048_S524288x1_S524288_n_0_n_n_0_1_1 : GatherDims S2048 S524288x1 S524288 where
  offsetDims := []
  collapsedSliceDims := [0]
  operandBatchingDims := []
  startIndicesBatchingDims := []
  startIndexMap := [0]
  indexVectorDim := 1
  sliceSizes := ![1]
  wf := gather_S2048_S524288x1_S524288_n_0_n_n_0_1_1_wf

class Facts : Prop extends Facts₀ where

variable [Facts]
-- ==== Proof.IndexRange.lean ====
/-
  What the precondition says of the graph indices. The printed predicate is a chain of per-array tests joined by
  "and"; its last conjunct is the "all" over the elementwise conjunction of  0 ≤ idx  and  idx < 2048  (signed
  comparisons of 32-bit words). So under the precondition every entry of the index array, read as a signed word,
  names a row of the 2048-row table.
-/
import proofs.«423160_j50775103373332_1_alg».proof.Pre_finite_inputs
import Idealize.ShloMosaic.Lib.ReduceAll
import Idealize.ShloMosaic.Lib.ValueIdx

noncomputable section

namespace Cert.Proof.IndexRange

open Idealize.ShloMosaic Cert.Pre_finite_inputs

variable [Cert.Pre_finite_inputs.Facts]

instance : Subsingleton S_.Idx := ⟨fun a b => funext fun d => d.elim0⟩

/-- Every index word is, as a signed integer, in [0, 2048). -/
theorem idx_in_range {F : FTy → Type} [FloatOps F]
    (a0 : FVec F S2048x128 .f32) (a1 : FVec F S524288x128 .f32) (a2 : FVec F S256x256 .f32) (a3 : FVec F S256 .f32)
    (a4 : FVec F S256x256 .f32) (a5 : FVec F S256 .f32) (a6 : FVec F S256x256 .f32) (a7 : FVec F S256 .f32)
    (a8 : FVec F S256x1 .f32) (a9 : FVec F S1 .f32) (a10 : IVec S524288 32)
    (h : fn (F := F) a0 a1 a2 a3 a4 a5 a6 a7 a8 a9 a10 = fun _ => 1#1) (i : S524288.Idx) :
    0 ≤ (a10 i).toInt ∧ (a10 i).toInt < 2048 := by
  have h0 := congrFun h ValueIdx.ix0
  dsimp only [fn, fn_part1, fn_part2, fn_part3] at h0
  have h1 := (IntOp.andi_eq_one.1 h0).2
  have h2 := Host.reduce_andi_all _ _ _ _ _ h1 i
  obtain ⟨hge, hlt⟩ := IntOp.andi_eq_one.1 h2
  have h3 := IntOp.cmpi_sge.1 hge
  have h4 := IntOp.cmpi_slt.1 hlt
  exact ⟨h3, h4⟩

end Cert.Proof.IndexRange

end
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.Scorer.lean ====
/-
  The candidate scorer as a function of a band of rows.

  A row x of 256 features goes through three dense layers, each followed by the rectifier,
      h ↦ max (h W + b) 0,
  and the row's unnormalised weight is  exp (h₃ · w_f + b_f).  Here the same map is written for a whole band of M rows
  at once, X : [M, 256] ↦ [M, 1], every product a row-by-column sum over the extended reals. The one fact needed of it:
  it acts ROW BY ROW — row p of the result depends on row p of X only — so a band cut out of a taller array gives
  the corresponding band of the taller array's result.
-/
import proofs.«423160_j50775103373332_1_alg».proof.Proof.LibMatProduct
import Idealize.ShloMosaic.PureOps.Ideal

noncomputable section

namespace Cert.Proof.Scorer

open Idealize.ShloMosaic Idealize.ShloMosaic.ValueIdx Cert.Lib.MatProduct

/-- An a-by-b array of extended reals. -/
abbrev Mat (a b : Nat) : Type := (⟨2, ![a, b]⟩ : Shape).Idx → EReal

variable {M M' : Nat}

/-- The float zero the rectifier compares with, as the word both programs carry. -/
abbrev fzero : EReal := Ideal.ofBits .f32 0x00000000#32

/-- A dense layer and the rectifier: entry (a, k) is  max (Σ_j X[a, j] W[j, k] + b[k]) 0. -/
def hidden (X : Mat M 256) (W : Mat 256 256) (b : Fin 256 → EReal) : Mat M 256 :=
  fun i => max (matProd X W i + b ⟨(i 1).val, idx2_lt1 i⟩) fzero

theorem hidden_ix2 (X : Mat M 256) (W : Mat 256 256) (b : Fin 256 → EReal) (a : Fin M) (k : Fin 256) :
    hidden X W b (ix2 a k) = max (matProd X W (ix2 a k) + b k) fzero := rfl

/-- A row's unnormalised weight:  exp (Σ_k H[a, k] w[k, 0] + c). -/
def weight (H : Mat M 256) (w : Mat 256 1) (c : EReal) : Mat M 1 :=
  fun i => Ideal.exp (matProd H w i + c)

theorem weight_ix2 (H : Mat M 256) (w : Mat 256 1) (c : EReal) (a : Fin M) (z : Fin 1) :
    weight H w c (ix2 a z) = Ideal.exp (matProd H w (ix2 a z) + c) := rfl

/-- Three hidden layers, then the weight. -/
def scorer (X : Mat M 256) (W1 : Mat 256 256) (b1 : Fin 256 → EReal) (W2 : Mat 256 256) (b2 : Fin 256 → EReal)
    (W3 : Mat 256 256) (b3 : Fin 256 → EReal) (w : Mat 256 1) (c : EReal) : Mat M 1 :=
  weight (hidden (hidden (hidden X W1 b1) W2 b2) W3 b3) w c

/-- A hidden layer acts row by row. -/
theorem hidden_row (X : Mat M 256) (X' : Mat M' 256) (W : Mat 256 256) (b : Fin 256 → EReal) (p : Fin M') (a : Fin M)
    (h : ∀ j : Fin 256, X' (ix2 p j) = X (ix2 a j)) (k : Fin 256) :
    hidden X' W b (ix2 p k) = hidden X W b (ix2 a k) := by
  rw [hidden_ix2, hidden_ix2, matProd_block X W X' W p k a k h (fun _ => rfl)]

/-- The weight acts row by row. -/
theorem weight_row (H : Mat M 256) (H' : Mat M' 256) (w : Mat 256 1) (c : EReal) (p : Fin M') (a : Fin M)
    (h : ∀ j : Fin 256, H' (ix2 p j) = H (ix2 a j)) (z : Fin 1) :
    weight H' w c (ix2 p z) = weight H w c (ix2 a z) := by
  rw [weight_ix2, weight_ix2, matProd_block H w H' w p z a z h (fun _ => rfl)]

/-- The scorer acts row by row: if row p of X' is row a of X, the weight of row p of X' is that of row a of X. -/
theorem scorer_row (X : Mat M 256) (X' : Mat M' 256) (W1 : Mat 256 256) (b1 : Fin 256 → EReal) (W2 : Mat 256 256)
    (b2 : Fin 256 → EReal) (W3 : Mat 256 256) (b3 : Fin 256 → EReal) (w : Mat 256 1) (c : EReal) (p : Fin M') (a : Fin M)
    (h : ∀ j : Fin 256, X' (ix2 p j) = X (ix2 a j)) (z : Fin 1) :
    scorer X' W1 b1 W2 b2 W3 b3 w c (ix2 p z) = scorer X W1 b1 W2 b2 W3 b3 w c (ix2 a z) :=
  weight_row _ _ w c p a
    (hidden_row _ _ W3 b3 p a (hidden_row _ _ W2 b2 p a (hidden_row X X' W1 b1 p a h))) z

end Cert.Proof.Scorer

end
-- ==== Proof.KernelBlock.lean ====
/-
  What the kernel body computes on one band of 2048 candidate rows, at the ideal values.

  The second output's block is the scorer of the first output's block: the body's three matrix products into a zero
  accumulator, each followed by the bias row broadcast down the band and the rectifier, are three hidden layers; the
  last product, the scalar bias and the exponential are the weight. Changes of float format are the identity on the
  extended reals, and reshaping a [2048, 1] column to a [2048] vector and back changes nothing.
-/
import proofs.«423160_j50775103373332_1_alg».proof.Proof.Gen.KernelIdeal.Skeleton
import proofs.«423160_j50775103373332_1_alg».proof.Proof.Scorer
import Idealize.ShloMosaic.Lib.ValueLayout
import Idealize.ShloMosaic.Lib.Pipeline.Value
import Idealize.ShloMosaic.PureOps.Ideal.Laws

noncomputable section

namespace Cert.Proof.KernelBlock

open Idealize.ShloMosaic Idealize.ShloMosaic.ValueIdx Idealize.ShloMosaic.TcCoe
open Cert.KernelIdeal Cert.KernelIdeal.Gen Cert.Lib.MatProduct Cert.Proof.Scorer

variable [Cert.KernelIdeal.Facts]

/-- The body's three kinds of matrix product carry the plain dimension numbers: rows by contraction, contraction by columns. -/
theorem dims_hidden : dot_S2048x256_S256x256_S2048x256_1_0_0_1_n_n = DotDims.plain 2048 256 256 := rfl
theorem dims_weight : dot_S2048x256_S256x1_S2048x1_1_0_0_1_n_n = DotDims.plain 2048 256 1 := rfl
theorem dims_lookup : dot_S2048x2048_S2048x128_S2048x128_1_0_0_1_n_n = DotDims.plain 2048 2048 128 := rfl

/-- One hidden layer of the body: product into zero, bias row down the band, rectifier, format change. -/
theorem layer_eq (A : FVec Ideal S2048x256 .bf16) (Wv : Vec Ideal S256x256 .bf16) (bv : Vec Ideal S1x256 .f32) :
    truncf .bf16 (maximumf (addf (matmul dot_S2048x256_S256x256_S2048x256_1_0_0_1_n_n none A
        (shapeCast S256x256 Wv shapeCasts_S256x256_S256x256 : FVec Ideal S256x256 .bf16) (constant S2048x256 .f32 0x00000000#32))
      (broadcastTo S2048x256 (shapeCast S1x256 bv shapeCasts_S1x256_S1x256 : FVec Ideal S1x256 .f32) broadcasts_S1x256_S2048x256))
      (broadcast S2048x256 (Scalar.ofBits .f32 0x00000000#32))) bitsLt_bf16_f32
      = hidden A Wv (fun k => bv (ix2 (0 : Fin 1) k)) := by
  rw [shapeCast_self, shapeCast_self, dims_hidden, matmul_plain_zero_eq]
  funext i
  obtain ⟨p, k, rfl⟩ : ∃ (p : Fin 2048) (k : Fin 256), i = ix2 p k := ⟨i 0, i 1, eq_ix2 i⟩
  rw [hidden_ix2]
  show max (matProd A Wv (ix2 p k) + broadcastTo S2048x256 bv broadcasts_S1x256_S2048x256 (ix2 p k)) _ = _
  rw [broadcastTo_1b_ab_apply]
  rfl

/-- Reshaping commutes with an operation applied entry by entry. -/
theorem shapeCast_exp {s t : Shape} {φ : FTy} (x : FVec Ideal s φ) (h : s.ShapeCasts t) :
    shapeCast t (exp x) h = exp (shapeCast t x h : FVec Ideal t φ) := rfl

/-- The last step of the body: product with the weight column into zero, the scalar bias down the band, the
    exponential; the column is reshaped to a vector for the exponential and back for the store. -/
theorem weight_eq (A : FVec Ideal S2048x256 .bf16) (wv : Vec Ideal S256x1 .bf16) (cv : Vec Ideal S1x1 .f32) :
    (shapeCast S2048x1 (exp (shapeCast S2048 (addf (matmul dot_S2048x256_S256x1_S2048x1_1_0_0_1_n_n none A
        (shapeCast S256x1 wv shapeCasts_S256x1_S256x1 : FVec Ideal S256x1 .bf16) (constant S2048x1 .f32 0x00000000#32))
      (broadcastTo S2048x1 (shapeCast S1x1 cv shapeCasts_S1x1_S1x1 : FVec Ideal S1x1 .f32) broadcasts_S1x1_S2048x1))
      shapeCasts_S2048x1_S2048 : FVec Ideal S2048 .f32)) shapeCasts_S2048_S2048x1 : FVec Ideal S2048x1 .f32)
      = weight A wv (cv (ix2 (0 : Fin 1) (0 : Fin 1))) := by
  rw [shapeCast_self, shapeCast_self, dims_weight, matmul_plain_zero_eq, shapeCast_exp, shapeCast_shapeCast]
  funext i
  obtain ⟨p, z, rfl⟩ : ∃ (p : Fin 2048) (z : Fin 1), i = ix2 p z := ⟨i 0, i 1, eq_ix2 i⟩
  rw [weight_ix2]
  show Ideal.exp (matProd A wv (ix2 p z) + broadcastTo S2048x1 cv broadcasts_S1x1_S2048x1 (ix2 p z)) = _
  rw [broadcastTo_1b_ab_apply]
  have hz : z = 0 := Subsingleton.elim _ _
  subst hz
  rfl

/-- A change of float format is the identity on the extended reals. -/
theorem truncf_id {s : Shape} {φ ψ : FTy} (x : FVec Ideal s φ) (h : ψ.bits < φ.bits) : truncf ψ x h = x := rfl

/-- The second output's block is the scorer of the first output's block. -/
theorem score_block (v0 : Vec Ideal S2048x1 .i32) (v9 v12 : Vec Ideal S2048x128 .f32)
    (v16 : Vec Ideal S256x256 .bf16) (v19 : Vec Ideal S1x256 .f32) (v26 : Vec Ideal S256x256 .bf16) (v29 : Vec Ideal S1x256 .f32)
    (v36 : Vec Ideal S256x256 .bf16) (v39 : Vec Ideal S1x256 .f32) (v46 : Vec Ideal S256x1 .bf16) (v49 : Vec Ideal S1x1 .f32) :
    k0_pay1 (k0_pay3 v0 v9 v12 v16 v19 v26 v29) v36 v39 v46 v49
      = scorer (k0_pay2 v0 v9 v12) v16 (fun k => v19 (ix2 (0 : Fin 1) k)) v26 (fun k => v29 (ix2 (0 : Fin 1) k))
          v36 (fun k => v39 (ix2 (0 : Fin 1) k)) v46 (v49 (ix2 (0 : Fin 1) (0 : Fin 1))) := by
  simp only [k0_pay1, k0_pay3]
  rw [layer_eq, layer_eq, layer_eq, weight_eq, truncf_id]
  rfl

/-! ## The table lookup as a product with an indicator array -/

/-- The bit of a word comparison, widened to a word and converted: 1 where the two words are equal, 0 elsewhere. -/
theorem indicator_entry (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · rw [IntOp.cmpi_eq.2 h, if_pos h]
    have e : ((1#1 : BitVec 1).setWidth 32).toInt = 1 := by decide
    rw [e]; simp
  · have h0 : IntOp.cmpi .eq x y = 0#1 := by
      rcases BitVec.eq_zero_or_eq_one (IntOp.cmpi .eq x y) with h0 | h1
      · exact h0
      · exact absurd (IntOp.cmpi_eq.1 h1) h
    rw [h0, if_neg h]
    have e : ((0#1 : BitVec 1).setWidth 32).toInt = 0 := by decide
    rw [e]; simp

/-- The body's indicator array: entry (p, b) compares the band's index word at row p with the column number b. -/
def indicator (v0 : Vec Ideal S2048x1 .i32) : FVec Ideal S2048x2048 .bf16 :=
  truncf .bf16 (sitofp .f32 (extui 32 (cmpi .eq
    (broadcastTo S2048x2048 (shapeCast S2048x1 (shapeCast S2048 v0 shapeCasts_S2048x1_S2048 : IVec S2048 32)
      shapeCasts_S2048_S2048x1 : IVec S2048x1 32) broadcasts_S2048x1_S2048x2048)
    (iota .tc S2048x2048 32 [1] iota_S2048x2048_d1_w32)) natLt_1_32)) bitsLt_bf16_f32

theorem indicator_apply (v0 : Vec Ideal S2048x1 .i32) (p b : Fin 2048) :
    indicator v0 (ix2 p b) = if v0 (ix2 p (0 : Fin 1)) = BitVec.ofNat 32 b.val then 1 else 0 := by
  unfold indicator
  rw [shapeCast_shapeCast]
  show FloatOps.sitofp (F := Ideal) .f32 ((IntOp.cmpi .eq (broadcastTo S2048x2048 v0 broadcasts_S2048x1_S2048x2048 (ix2 p b))
    (iota .tc S2048x2048 32 [1] iota_S2048x2048_d1_w32 (ix2 p b))).setWidth 32) = _
  rw [indicator_entry, iota_single_apply,
    broadcastTo_apply v0 broadcasts_S2048x1_S2048x2048 (ix2 p b) (ix2 p (0 : Fin 1))
      (fun a => by match a with | ⟨0, _⟩ => rfl | ⟨1, _⟩ => rfl)]

/-- Row p of the indicator array times the table is the table's row named by the index word at p. -/
theorem lookup_apply (v0 : Vec Ideal S2048x1 .i32) (v9 : Vec Ideal S2048x128 .f32) (p b₀ : Fin 2048)
    (hb : v0 (ix2 p (0 : Fin 1)) = BitVec.ofNat 32 b₀.val) (j : Fin 128) :
    matProd (indicator v0) v9 (ix2 p j) = v9 (ix2 b₀ j) := by
  rw [matProd_ix2, Finset.sum_eq_single b₀]
  · rw [indicator_apply, if_pos hb, one_mul]
  · intro b _ hne
    rw [indicator_apply, if_neg, zero_mul]
    intro h
    apply hne
    have h2 := congrArg BitVec.toNat (hb.symm.trans h)
    simp only [BitVec.toNat_ofNat] at h2
    have hb1 := b.isLt
    have hb2 := b₀.isLt
    apply Fin.ext
    omega
  · intro h
    exact absurd (Finset.mem_univ _) h

/-- The first output's block: the looked-up rows beside the band of candidate rows. -/
theorem pay2_eq (v0 : Vec Ideal S2048x1 .i32) (v9 v12 : Vec Ideal S2048x128 .f32) :
    k0_pay2 v0 v9 v12 = concatenate S2048x256 1 [⟨S2048x128, matProd (indicator v0) v9⟩, ⟨S2048x128, v12⟩]
      concatenates_S2048x128_S2048x128_S2048x256_d1 := by
  simp only [k0_pay2]
  rw [dims_lookup, matmul_plain_zero_eq, truncf_id]
  rfl

/-- Columns 0 … 127 of the first output's block: the table's row named by the index word. -/
theorem block_left (v0 : Vec Ideal S2048x1 .i32) (v9 v12 : Vec Ideal S2048x128 .f32) (p b₀ : Fin 2048)
    (hb : v0 (ix2 p (0 : Fin 1)) = BitVec.ofNat 32 b₀.val) (j : Fin 128) :
    k0_pay2 v0 v9 v12 (ix2 p (⟨j.val, by omega⟩ : Fin 256)) = v9 (ix2 b₀ j) := by
  rw [pay2_eq, concatenate_pair_apply_left (t := S2048x256) (s₁ := S2048x128) (s₂ := S2048x128) (1 : Fin 2) _ _ _
    (ix2 p (⟨j.val, by omega⟩ : Fin 256)) rfl (ix2 p j) (fun b => by match b with | ⟨0, _⟩ => rfl | ⟨1, _⟩ => rfl)]
  exact lookup_apply v0 v9 p b₀ hb j

/-- Columns 128 … 255 of the first output's block: the candidate's own row. -/
theorem block_right (v0 : Vec Ideal S2048x1 .i32) (v9 v12 : Vec Ideal S2048x128 .f32) (p : Fin 2048) (j : Fin 128) :
    k0_pay2 v0 v9 v12 (ix2 p (⟨j.val + 128, by omega⟩ : Fin 256)) = v12 (ix2 p j) := by
  rw [pay2_eq]
  exact concatenate_pair_apply_right (t := S2048x256) (s₁ := S2048x128) (s₂ := S2048x128) (1 : Fin 2) _ _ _
    (ix2 p (⟨j.val + 128, by omega⟩ : Fin 256)) rfl rfl (ix2 p j)
    (fun b hne => by match b with | ⟨0, _⟩ => rfl | ⟨1, _⟩ => exact absurd rfl hne) rfl

end Cert.Proof.KernelBlock

end
-- ==== Proof.LibRowGather.lean ====
/-
  A row lookup on the host, read at an index. What table[rows] of a matrix table : [N, C] at an integer array rows : [E]
  lowers to: a gather with offset axis 1, collapsed slice axis 0, start index map [0], slices of one whole row, over the
  rows laid out as [E, 1]. Result element (e, k) is the table at row rows[e, 0], read as a signed integer and kept inside
  [0, N − 1] as the host's gather keeps every start index, and at column k.
-/
import Idealize.ShloMosaic.Lib.ValueIdx

noncomputable section

namespace Cert.Lib.RowGather

open Idealize.ShloMosaic Idealize.ShloMosaic.ValueIdx

variable {α : Type}

/-- Those dimension numbers for a table [N, C], rows [E, 1] and result [E, C]; their conditions are decided on a
    program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Coordinates

variable {N C E w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the table's row axis the operand index is the start index: the word at (e, 0), signed, kept inside the table. -/
theorem coord_row :
    (rowDims N C E wf).start (ix2 e k) idx (0 : Fin 2) + (rowDims N C E wf).batchCoord (ix2 e k) (0 : Fin 2)
      + (rowDims N C E wf).offCoord (ix2 e k) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx (ix2 e k) ⟨List.idxOf (0 : Fin 2) (rowDims N C E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the table's column axis the operand index is the result's column. -/
theorem coord_col :
    (rowDims N C E wf).start (ix2 e k) idx (1 : Fin 2) + (rowDims N C E wf).batchCoord (ix2 e k) (1 : Fin 2)
      + (rowDims N C E wf).offCoord (ix2 e k) (1 : Fin 2) = k.val := by
  rw [GatherDims.batchCoord_eq_zero _ _ _ List.not_mem_nil]
  have hs : (rowDims N C E wf).start (ix2 e k) idx (1 : Fin 2) = 0 := by
    unfold GatherDims.start
    rw [dif_neg (fun h => absurd (congrArg Fin.val (List.mem_singleton.mp h)) Nat.one_ne_zero)]
  rw [hs]
  simp only [Nat.add_zero, Nat.zero_add]
  rfl

end Coordinates

/-- The lookup read at (e, k): row rows[e, 0] (signed, kept inside the table), column k. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ => exact coord_row wf idx e k
  | ⟨1, _⟩ => exact coord_col wf idx e k

end Cert.Lib.RowGather

end
-- ==== Proof.ReferenceRead.lean ====
/-
  What the reference computes, read at an index, at the ideal values.

  Its feature array is the looked-up table rows beside the candidate rows; for an index word that is non-negative as a
  signed integer the "count a negative index from the end" step changes nothing, and for one below the table's height
  the lookup's clamping changes nothing either: row r of the left half is the table's row idx[r]. Its weights are the
  scorer of that array: each dot_general with its bias and rectifier is a hidden layer, the last one with the scalar
  bias and the exponential is the weight.
-/
import proofs.«423160_j50775103373332_1_alg».proof.Proof.Gen.ReferenceIdeal.Read
import proofs.«423160_j50775103373332_1_alg».proof.Proof.Scorer
import proofs.«423160_j50775103373332_1_alg».proof.Proof.LibRowGather
import Idealize.ShloMosaic.Lib.Pipeline.Value
import Idealize.ShloMosaic.Lib.Affine

noncomputable section

namespace Cert.Proof.ReferenceRead

open Idealize.ShloMosaic Idealize.ShloMosaic.ValueIdx Idealize.ShloMosaic.TcCoe
open Cert.ReferenceIdeal Cert.ReferenceIdeal.Gen Cert.ReferenceIdeal.Read Cert.Lib.MatProduct Cert.Lib.RowGather Cert.Proof.Scorer

variable [Cert.ReferenceIdeal.Facts]

/-- The reference's lookup carries the row-lookup dimension numbers; its products the plain ones. -/
theorem dims_gather : gather_S2048x128_S524288x1_S524288x128_1_0_n_n_0_1_1128
    = rowDims 2048 128 524288 gather_S2048x128_S524288x1_S524288x128_1_0_n_n_0_1_1128_wf := rfl
theorem dims_hidden : dot_S524288x256_S256x256_S524288x256_1_0_0_1_n_n = DotDims.plain 524288 256 256 := rfl
theorem dims_weight : dot_S524288x256_S256x1_S524288x1_1_0_0_1_n_n = DotDims.plain 524288 256 1 := rfl

/-- Counting a negative index from the end leaves a non-negative one alone. -/
theorem wrap_nonneg (x : BitVec 32) (h : 0 ≤ x.toInt) :
    Scalar.select (IntOp.cmpi .slt x 0#32) (IntOp.addi x 2048#32) x = x := by
  have h0 : (0#32 : BitVec 32).toInt = 0 := by decide
  have hc : IntOp.cmpi .slt x 0#32 = 0#1 :=
    eq_zero_of_ne_one fun h1 => by have := IntOp.cmpi_slt.1 h1; omega
  rw [hc, select_zero]

/-- The lookup's start index at row r is the index word itself. -/
theorem wrapped_apply (x10 : IVec S524288 32) (r : Fin 524288) (h : 0 ≤ (x10 (ix1 r)).toInt) :
    val_main_v5 (F := Ideal) x10 (ix2 r (0 : Fin 1)) = x10 (ix1 r) := by
  have e : idx_main_v5 (ix2 r (0 : Fin 1)) = ix1 r := funext fun a => by match a with | ⟨0, _⟩ => rfl
  rw [val_main_v5_apply, e, val_main_v4_apply, val_main_v1_apply, val_main_v3_apply, val_main_v0_apply, val_main_c_apply,
    val_main_v2_apply, val_main_c_0_apply]
  exact wrap_nonneg _ h

/-- Columns 0 … 127 of the reference's feature array: the table's row named by the index word. -/
theorem ref_left (x0 : FVec Ideal S2048x128 .f32) (x1 : FVec Ideal S524288x128 .f32) (x10 : IVec S524288 32) (r : Fin 524288)
    (h0 : 0 ≤ (x10 (ix1 r)).toInt) (h1 : (x10 (ix1 r)).toInt < 2048) (j : Fin 128) :
    val_main_v7 (F := Ideal) x0 x1 x10 (ix2 r (⟨j.val, by omega⟩ : Fin 256))
      = x0 (ix2 (⟨(x10 (ix1 r)).toInt.toNat, by omega⟩ : Fin 2048) j) := by
  unfold val_main_v7
  rw [concatenate_pair_apply_left (t := S524288x256) (s₁ := S524288x128) (s₂ := S524288x128) (1 : Fin 2) _ _ _
    (ix2 r (⟨j.val, by omega⟩ : Fin 256)) rfl (ix2 r j) (fun b => by match b with | ⟨0, _⟩ => rfl | ⟨1, _⟩ => rfl)]
  unfold val_main_v6
  rw [dims_gather, rowGather_apply (by decide) _ x0 _ r j]
  have hw : val_main_v5 (F := Ideal) x10 (ix2 r ⟨0, Nat.one_pos⟩) = x10 (ix1 r) := wrapped_apply x10 r h0
  refine congrArg x0 (congrArg (fun a => ix2 a j) (Fin.ext ?_))
  show min (BitVec.toInt (val_main_v5 (F := Ideal) x10 (ix2 r ⟨0, Nat.one_pos⟩))).toNat (2048 - 1)
    = (x10 (ix1 r)).toInt.toNat
  rw [hw]
  omega

/-- Columns 128 … 255 of the reference's feature array: the candidate's own row. -/
theorem ref_right (x0 : FVec Ideal S2048x128 .f32) (x1 : FVec Ideal S524288x128 .f32) (x10 : IVec S524288 32) (r : Fin 524288)
    (j : Fin 128) :
    val_main_v7 (F := Ideal) x0 x1 x10 (ix2 r (⟨j.val + 128, by omega⟩ : Fin 256)) = x1 (ix2 r j) := by
  unfold val_main_v7
  exact concatenate_pair_apply_right (t := S524288x256) (s₁ := S524288x128) (s₂ := S524288x128) (1 : Fin 2) _ _ _
    (ix2 r (⟨j.val + 128, by omega⟩ : Fin 256)) rfl rfl (ix2 r j)
    (fun b hne => by match b with | ⟨0, _⟩ => rfl | ⟨1, _⟩ => exact absurd rfl hne) rfl

/-! ## The reference's layers -/

/-- A bias vector broadcast to one row and then down all rows, read at (r, k): entry k. -/
theorem bias_apply (b : FVec Ideal S256 .f32) (r : Fin 524288) (k : Fin 256) :
    val_main_v10 (F := Ideal) b (ix2 r k) = b (ix1 k) := by
  have e : idx_main_v9 (idx_main_v10 (ix2 r k)) = ix1 k := funext fun a => by match a with | ⟨0, _⟩ => rfl
  rw [val_main_v10_apply, val_main_v9_apply, e]

/-- One layer of the reference: dot_general, bias, rectifier. -/
theorem ref_layer (X : FVec Ideal S524288x256 .f32) (W : FVec Ideal S256x256 .f32) (b : FVec Ideal S256 .f32) :
    maximumf (addf (Host.dotGeneral dot_S524288x256_S256x256_S524288x256_1_0_0_1_n_n none X W) (val_main_v10 (F := Ideal) b))
      (val_main_call0_v0 (F := Ideal)) = hidden X W (fun k => b (ix1 k)) := by
  rw [dims_hidden, dotGeneral_plain_eq]
  funext i
  obtain ⟨r, k, rfl⟩ : ∃ (r : Fin 524288) (k : Fin 256), i = ix2 r k := ⟨i 0, i 1, eq_ix2 i⟩
  rw [hidden_ix2]
  show max (matProd X W (ix2 r k) + val_main_v10 (F := Ideal) b (ix2 r k)) (val_main_call0_v0 (F := Ideal) (ix2 r k)) = _
  rw [bias_apply, val_main_call0_v0_apply, val_main_call0_cst_apply]
  rfl

section Weights

variable (x0 : FVec Ideal S2048x128 .f32) (x1 : FVec Ideal S524288x128 .f32) (x2 : FVec Ideal S256x256 .f32)
  (x3 : FVec Ideal S256 .f32) (x4 : FVec Ideal S256x256 .f32) (x5 : FVec Ideal S256 .f32) (x6 : FVec Ideal S256x256 .f32)
  (x7 : FVec Ideal S256 .f32) (x8 : FVec Ideal S256x1 .f32) (x9 : FVec Ideal S1 .f32) (x10 : IVec S524288 32)

/-- The reference's three hidden layers. -/
theorem ref_hidden1 : val_main_v12 (F := Ideal) x0 x1 x2 x3 x10
    = hidden (val_main_v7 (F := Ideal) x0 x1 x10) x2 (fun k => x3 (ix1 k)) := by
  unfold val_main_v12 val_main_v11 val_main_v8
  exact ref_layer _ _ _

theorem ref_hidden2 : val_main_v17 (F := Ideal) x0 x1 x2 x3 x4 x5 x10
    = hidden (val_main_v12 (F := Ideal) x0 x1 x2 x3 x10) x4 (fun k => x5 (ix1 k)) := by
  unfold val_main_v17 val_main_v16 val_main_v13
  exact ref_layer _ _ _

theorem ref_hidden3 : val_main_v22 (F := Ideal) x0 x1 x2 x3 x4 x5 x6 x7 x10
    = hidden (val_main_v17 (F := Ideal) x0 x1 x2 x3 x4 x5 x10) x6 (fun k => x7 (ix1 k)) := by
  unfold val_main_v22 val_main_v21 val_main_v18
  exact ref_layer _ _ _

/-- The reference's weights are the scorer of its feature array. -/
theorem ref_scores (r : Fin 524288) :
    val_main_v28 (F := Ideal) x0 x1 x2 x3 x4 x5 x6 x7 x8 x9 x10 (ix1 r)
      = scorer (val_main_v7 (F := Ideal) x0 x1 x10) x2 (fun k => x3 (ix1 k)) x4 (fun k => x5 (ix1 k)) x6 (fun k => x7 (ix1 k))
          x8 (x9 (ix1 (0 : Fin 1))) (ix2 r (0 : Fin 1)) := by
  have e27 : idx_main_v27 (ix1 r) = ix2 r (0 : Fin 1) := funext fun a => by
    match a with
    | ⟨0, _⟩ => exact Fin.ext (Nat.div_one _)
    | ⟨1, _⟩ => rfl
  have e24 : idx_main_v24 (idx_main_v25 (ix2 r (0 : Fin 1))) = ix1 (0 : Fin 1) := funext fun a => by
    match a with | ⟨0, _⟩ => rfl
  rw [val_main_v28_apply, val_main_v27_apply, e27, val_main_v26_apply, val_main_v25_apply, val_main_v24_apply, e24]
  unfold val_main_v23
  rw [dims_weight, dotGeneral_plain_eq, ref_hidden3, ref_hidden2, ref_hidden1]
  rfl

end Weights

end Cert.Proof.ReferenceRead

end
-- ==== Proof.KernelArrays.lean ====
/-
  From the kernel's blocks to its arrays, at the ideal values.

  The grid has 256 points; point t works on the band of candidate rows 2048 t … 2048 t + 2047. It is handed the whole
  table, the band of the candidate array and of the index column, and the whole weight and bias arrays (the weights as the
  host converted them, which at the ideal values is as they were; the biases reshaped to one row), and writes the band of
  the feature array and of the weight column. Every array index lies in exactly one band, so the two result arrays are
  whole-array functions: the feature array is the reference's, and the weight column holds the reference's weights.
-/
import proofs.«423160_j50775103373332_1_alg».proof.Proof.Gen.KernelIdeal.Frame
import proofs.«423160_j50775103373332_1_alg».proof.Proof.KernelBlock
import proofs.«423160_j50775103373332_1_alg».proof.Proof.ReferenceRead
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Proof.KernelArrays

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The index maps over the grid: the table, weights and biases are handed whole at every point; the candidate rows,
    the index column and both outputs move one band per point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-! ## The blocks a point is handed -/

/-- The table's block at any point is the table. -/
theorem tbl_block (c : Dev nD) (t : Fin cfg0.N) (y : S2048x128.Idx) :
    (iblk m c 0 t : Vec Ideal S2048x128 .f32) y = (m ((c : Thread nD τ).loc main_arg0) : S2048x128.Idx → EReal) y := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 2048 + 1 * (y 0).val = (y 0).val; rw [e0]; omega
  | ⟨1, _⟩ => show win0_0.index t (1 : Fin 2) * 128 + 1 * (y 1).val = (y 1).val; rw [e1]; omega

theorem point_lt (t : Fin cfg0.N) : t.val < 256 := by
  have h : t.val < cfg0.N := t.isLt
  have e : cfg0.N = 256 := N_0
  omega

/-- Row p of the band of point t is row 2048 t + p of the arrays. -/
def rowOf (t : Fin cfg0.N) (p : Fin 2048) : Fin 524288 :=
  ⟨2048 * t.val + p.val, by have := point_lt t; have := p.isLt; omega⟩

/-- The candidates' block at point t is their band. -/
theorem cand_block (c : Dev nD) (t : Fin cfg0.N) (p : Fin 2048) (j : Fin 128) :
    (iblk m c 1 t : Vec Ideal S2048x128 .f32) (ix2 p j)
      = (m ((c : Thread nD τ).loc main_arg1) : S524288x128.Idx → EReal) (ix2 (rowOf t p) j) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 2048 + 1 * p.val = 2048 * t.val + p.val; rw [e0]; omega
  | ⟨1, _⟩ => show win0_1.index t (1 : Fin 2) * 128 + 1 * j.val = j.val; rw [e1]; omega

/-! The arrays the host prepares before the launch. -/

theorem V_idx (c : Dev nD) : (V m c main_v8 : S524288x1.Idx → BitVec 32)
    = shapeCast S524288x1 (m ((c : Thread nD τ).loc main_arg10) : S524288.Idx → BitVec 32) shapeCasts_S524288_S524288x1 := by
  show StableHlo.after hostOps0 (fun b => m (c, b)) (Proc.devRef .tc main_v8) = _
  after_results
  rfl

/-- The index column's block at point t is the band of the index array. -/
theorem idx_block (c : Dev nD) (t : Fin cfg0.N) (p : Fin 2048) :
    (iblk m c 2 t : Vec Ideal S2048x1 .i32) (ix2 p (0 : Fin 1))
      = (m ((c : Thread nD τ).loc main_arg10) : S524288.Idx → BitVec 32) (ix1 (rowOf t p)) := by
  obtain ⟨-, -, -, -, e0, e1, -⟩ := idx_facts t
  unfold iblk
  rw [View.read_apply]
  show V m c main_v8 _ = _
  rw [V_idx]
  refine shapeCast_apply _ _ _ (ix1 (rowOf t p)) ?_
  rw [Shape.rowMajor_val_two, Shape.rowMajor_val_one]
  show 2048 * t.val + p.val = (win0_2.index t (0 : Fin 2) * 2048 + 1 * p.val) * 1 + (win0_2.index t (1 : Fin 2) * 1 + 1 * 0)
  rw [e0, e1]
  omega

/-- The weights as the host converts them are, at the ideal values, the weights. -/
theorem V_w1 (c : Dev nD) : (V m c main_v0 : S256x256.Idx → EReal) = (m ((c : Thread nD τ).loc main_arg2) : S256x256.Idx → EReal) := by
  show StableHlo.after hostOps0 (fun b => m (c, b)) (Proc.devRef .tc main_v0) = _
  after_results
  rfl
theorem V_w2 (c : Dev nD) : (V m c main_v1 : S256x256.Idx → EReal) = (m ((c : Thread nD τ).loc main_arg4) : S256x256.Idx → EReal) := by
  show StableHlo.after hostOps0 (fun b => m (c, b)) (Proc.devRef .tc main_v1) = _
  after_results
  rfl
theorem V_w3 (c : Dev nD) : (V m c main_v2 : S256x256.Idx → EReal) = (m ((c : Thread nD τ).loc main_arg6) : S256x256.Idx → EReal) := by
  show StableHlo.after hostOps0 (fun b => m (c, b)) (Proc.devRef .tc main_v2) = _
  after_results
  rfl
theorem V_wf (c : Dev nD) : (V m c main_v3 : S256x1.Idx → EReal) = (m ((c : Thread nD τ).loc main_arg8) : S256x1.Idx → EReal) := by
  show StableHlo.after hostOps0 (fun b => m (c, b)) (Proc.devRef .tc main_v3) = _
  after_results
  rfl

/-- The biases as the host reshapes them: one row each. -/
theorem V_b1 (c : Dev nD) : (V m c main_v4 : S1x256.Idx → EReal)
    = shapeCast S1x256 (m ((c : Thread nD τ).loc main_arg3) : S256.Idx → EReal) shapeCasts_S256_S1x256 := by
  show StableHlo.after hostOps0 (fun b => m (c, b)) (Proc.devRef .tc main_v4) = _
  after_results
  rfl
theorem V_b2 (c : Dev nD) : (V m c main_v5 : S1x256.Idx → EReal)
    = shapeCast S1x256 (m ((c : Thread nD τ).loc main_arg5) : S256.Idx → EReal) shapeCasts_S256_S1x256 := by
  show StableHlo.after hostOps0 (fun b => m (c, b)) (Proc.devRef .tc main_v5) = _
  after_results
  rfl
theorem V_b3 (c : Dev nD) : (V m c main_v6 : S1x256.Idx → EReal)
    = shapeCast S1x256 (m ((c : Thread nD τ).loc main_arg7) : S256.Idx → EReal) shapeCasts_S256_S1x256 := by
  show StableHlo.after hostOps0 (fun b => m (c, b)) (Proc.devRef .tc main_v6) = _
  after_results
  rfl
theorem V_bf (c : Dev nD) : (V m c main_v7 : S1x1.Idx → EReal)
    = shapeCast S1x1 (m ((c : Thread nD τ).loc main_arg9) : S1.Idx → EReal) shapeCasts_S1_S1x1 := by
  show StableHlo.after hostOps0 (fun b => m (c, b)) (Proc.devRef .tc main_v7) = _
  after_results
  rfl

/-- Each weight block at any point is the whole weight array. -/
theorem w1_block (c : Dev nD) (t : Fin cfg0.N) :
    (iblk m c 3 t : Vec Ideal S256x256 .bf16) = (m ((c : Thread nD τ).loc main_arg2) : S256x256.Idx → EReal) := by
  obtain ⟨-, -, -, -, -, -, e0, e1, -⟩ := idx_facts t
  funext y
  unfold iblk
  rw [View.read_apply]
  show V m c main_v0 _ = _
  rw [V_w1]
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

theorem w2_block (c : Dev nD) (t : Fin cfg0.N) :
    (iblk m c 5 t : Vec Ideal S256x256 .bf16) = (m ((c : Thread nD τ).loc main_arg4) : S256x256.Idx → EReal) := by
  obtain ⟨-, -, -, -, -, -, -, -, -, -, e0, e1, -⟩ := idx_facts t
  funext y
  unfold iblk
  rw [View.read_apply]
  show V m c main_v1 _ = _
  rw [V_w2]
  congr 1
  funext a
  apply Fin.ext
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

theorem w3_block (c : Dev nD) (t : Fin cfg0.N) :
    (iblk m c 7 t : Vec Ideal S256x256 .bf16) = (m ((c : Thread nD τ).loc main_arg6) : S256x256.Idx → EReal) := by
  obtain ⟨-, -, -, -, -, -, -, -, -, -, -, -, -, -, e0, e1, -⟩ := idx_facts t
  funext y
  unfold iblk
  rw [View.read_apply]
  show V m c main_v2 _ = _
  rw [V_w3]
  congr 1
  funext a
  apply Fin.ext
  match a with
  | ⟨0, _⟩ => show win0_7.index t (0 : Fin 2) * 256 + 1 * (y 0).val = (y 0).val; rw [e0]; omega
  | ⟨1, _⟩ => show win0_7.index t (1 : Fin 2) * 256 + 1 * (y 1).val = (y 1).val; rw [e1]; omega

theorem wf_block (c : Dev nD) (t : Fin cfg0.N) :
    (iblk m c 9 t : Vec Ideal S256x1 .bf16) = (m ((c : Thread nD τ).loc main_arg8) : S256x1.Idx → EReal) := by
  obtain ⟨-, -, -, -, -, -, -, -, -, -, -, -, -, -, -, -, -, -, e0, e1, -⟩ := idx_facts t
  funext y
  unfold iblk
  rw [View.read_apply]
  show V m c main_v3 _ = _
  rw [V_wf]
  congr 1
  funext a
  apply Fin.ext
  match a with
  | ⟨0, _⟩ => show win0_9.index t (0 : Fin 2) * 256 + 1 * (y 0).val = (y 0).val; rw [e0]; omega
  | ⟨1, _⟩ => show win0_9.index t (1 : Fin 2) * 1 + 1 * (y 1).val = (y 1).val; rw [e1]; omega

/-- Each bias block at any point is the bias as one row. -/
theorem b1_block (c : Dev nD) (t : Fin cfg0.N) (k : Fin 256) :
    (iblk m c 4 t : Vec Ideal S1x256 .f32) (ix2 (0 : Fin 1) k) = (m ((c : Thread nD τ).loc main_arg3) : S256.Idx → EReal) (ix1 k) := by
  obtain ⟨-, -, -, -, -, -, -, -, e0, e1, -⟩ := idx_facts t
  unfold iblk
  rw [View.read_apply]
  show V m c main_v4 _ = _
  rw [V_b1]
  refine shapeCast_apply _ _ _ (ix1 k) ?_
  rw [Shape.rowMajor_val_two, Shape.rowMajor_val_one]
  show k.val = (win0_4.index t (0 : Fin 2) * 1 + 1 * 0) * 256 + (win0_4.index t (1 : Fin 2) * 256 + 1 * k.val)
  rw [e0, e1]
  omega

theorem b2_block (c : Dev nD) (t : Fin cfg0.N) (k : Fin 256) :
    (iblk m c 6 t : Vec Ideal S1x256 .f32) (ix2 (0 : Fin 1) k) = (m ((c : Thread nD τ).loc main_arg5) : S256.Idx → EReal) (ix1 k) := by
  obtain ⟨-, -, -, -, -, -, -, -, -, -, -, -, e0, e1, -⟩ := idx_facts t
  unfold iblk
  rw [View.read_apply]
  show V m c main_v5 _ = _
  rw [V_b2]
  refine shapeCast_apply _ _ _ (ix1 k) ?_
  rw [Shape.rowMajor_val_two, Shape.rowMajor_val_one]
  show k.val = (win0_6.index t (0 : Fin 2) * 1 + 1 * 0) * 256 + (win0_6.index t (1 : Fin 2) * 256 + 1 * k.val)
  rw [e0, e1]
  omega

theorem b3_block (c : Dev nD) (t : Fin cfg0.N) (k : Fin 256) :
    (iblk m c 8 t : Vec Ideal S1x256 .f32) (ix2 (0 : Fin 1) k) = (m ((c : Thread nD τ).loc main_arg7) : S256.Idx → EReal) (ix1 k) := by
  obtain ⟨-, -, -, -, -, -, -, -, -, -, -, -, -, -, -, -, e0, e1, -⟩ := idx_facts t
  unfold iblk
  rw [View.read_apply]
  show V m c main_v6 _ = _
  rw [V_b3]
  refine shapeCast_apply _ _ _ (ix1 k) ?_
  rw [Shape.rowMajor_val_two, Shape.rowMajor_val_one]
  show k.val = (win0_8.index t (0 : Fin 2) * 1 + 1 * 0) * 256 + (win0_8.index t (1 : Fin 2) * 256 + 1 * k.val)
  rw [e0, e1]
  omega

theorem bf_block (c : Dev nD) (t : Fin cfg0.N) :
    (iblk m c 10 t : Vec Ideal S1x1 .f32) (ix2 (0 : Fin 1) (0 : Fin 1))
      = (m ((c : Thread nD τ).loc main_arg9) : S1.Idx → EReal) (ix1 (0 : Fin 1)) := by
  obtain ⟨-, -, -, -, -, -, -, -, -, -, -, -, -, -, -, -, -, -, -, -, e0, e1, -⟩ := idx_facts t
  unfold iblk
  rw [View.read_apply]
  show V m c main_v7 _ = _
  rw [V_bf]
  refine shapeCast_apply _ _ _ (ix1 (0 : Fin 1)) ?_
  rw [Shape.rowMajor_val_two, Shape.rowMajor_val_one]
  show 0 = (win0_10.index t (0 : Fin 2) * 1 + 1 * 0) * 1 + (win0_10.index t (1 : Fin 2) * 1 + 1 * 0)
  rw [e0, e1]

/-! ## The two results as whole-array functions -/

/-- The feature array: the reference's, of the kernel's argument arrays. -/
def features (c : Dev nD) : S524288x256.Idx → EReal :=
  Cert.ReferenceIdeal.Read.val_main_v7 (F := Ideal) (m ((c : Thread nD τ).loc main_arg0)) (m ((c : Thread nD τ).loc main_arg1))
    (m ((c : Thread nD τ).loc main_arg10))

/-- The unnormalised weights: the reference's, of the kernel's argument arrays. -/
def weights (c : Dev nD) : S524288.Idx → EReal :=
  Cert.ReferenceIdeal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- Every index word names a row of the table. -/
def InRange (c : Dev nD) : Prop :=
  ∀ r : Fin 524288, 0 ≤ ((m ((c : Thread nD τ).loc main_arg10) : S524288.Idx → BitVec 32) (ix1 r)).toInt
    ∧ ((m ((c : Thread nD τ).loc main_arg10) : S524288.Idx → BitVec 32) (ix1 r)).toInt < 2048

/-- A word that is non-negative as a signed integer is the word of that natural number. -/
theorem word_of_nonneg (x : BitVec 32) (h : 0 ≤ x.toInt) : x = BitVec.ofNat 32 x.toInt.toNat := by
  apply BitVec.eq_of_toNat_eq
  rw [BitVec.toNat_ofNat]
  have e := BitVec.toInt_eq_toNat_cond x
  have hx := x.isLt
  omega

/-- Row p of the band's feature block at point t is row 2048 t + p of the feature array. -/
theorem band_rows (c : Dev nD) (hr : InRange m c) (t : Fin cfg0.N) (p : Fin 2048) (q : Fin 256) :
    k0_pay2 (iblk m c 2 t : Vec Ideal S2048x1 .i32) (iblk m c 0 t : Vec Ideal S2048x128 .f32)
      (iblk m c 1 t : Vec Ideal S2048x128 .f32) (ix2 p q) = features m c (ix2 (rowOf t p) q) := by
  obtain ⟨h0, h1⟩ := hr (rowOf t p)
  have lo : ∀ j : Fin 128, j.val < 256 := fun j => by have := j.isLt; omega
  have hi : ∀ j : Fin 128, j.val + 128 < 256 := fun j => by have := j.isLt; omega
  by_cases hq : q.val < 128
  · obtain ⟨j, rfl⟩ : ∃ j : Fin 128, q = ⟨j.val, lo j⟩ := ⟨⟨q.val, hq⟩, rfl⟩
    have hb : (iblk m c 2 t : Vec Ideal S2048x1 .i32) (ix2 p (0 : Fin 1))
        = BitVec.ofNat 32 ((m ((c : Thread nD τ).loc main_arg10) : S524288.Idx → BitVec 32) (ix1 (rowOf t p))).toInt.toNat := by
      rw [idx_block]
      exact word_of_nonneg _ h0
    refine (KernelBlock.block_left (iblk m c 2 t) (iblk m c 0 t) (iblk m c 1 t) p
      ⟨((m ((c : Thread nD τ).loc main_arg10) : S524288.Idx → BitVec 32) (ix1 (rowOf t p))).toInt.toNat, by omega⟩ hb j).trans ?_
    rw [tbl_block]
    exact (ReferenceRead.ref_left _ _ _ (rowOf t p) h0 h1 j).symm
  · obtain ⟨j, rfl⟩ : ∃ j : Fin 128, q = ⟨j.val + 128, hi j⟩ :=
      ⟨⟨q.val - 128, by have := q.isLt; omega⟩, Fin.ext (by show q.val = q.val - 128 + 128; omega)⟩
    refine (KernelBlock.block_right (iblk m c 2 t) (iblk m c 0 t) (iblk m c 1 t) p j).trans ?_
    rw [cand_block]
    exact (ReferenceRead.ref_right _ _ _ (rowOf t p) j).symm

/-- The weights laid out as the kernel's second output, a column. -/
def weightCol (c : Dev nD) : S524288x1.Idx → EReal := fun i => weights m c (ix1 ⟨(i 0).val, idx2_lt0 i⟩)

/-- Where entry (p, q) of the feature band of point t sits in the feature array. -/
theorem emb_features (t : Fin cfg0.N) (p : Fin 2048) (q : Fin 256) :
    ((cfg0.win 11).blk t).view.emb (ix2 p q) = ix2 (rowOf t p) q := by
  obtain ⟨-, -, -, -, -, -, -, -, -, -, -, -, -, -, -, -, -, -, -, -, -, -, e0, e1, -⟩ := idx_facts t
  funext a
  apply Fin.ext
  match a with
  | ⟨0, _⟩ => show win0_11.index t (0 : Fin 2) * 2048 + 1 * p.val = 2048 * t.val + p.val; rw [e0]; omega
  | ⟨1, _⟩ => show win0_11.index t (1 : Fin 2) * 256 + 1 * q.val = q.val; rw [e1]; omega

/-- Where entry (p, z) of the weight band of point t sits in the weight column. -/
theorem emb_weights (t : Fin cfg0.N) (p : Fin 2048) (z : Fin 1) :
    ((cfg0.win 12).blk t).view.emb (ix2 p z) = ix2 (rowOf t p) z := by
  obtain ⟨-, -, -, -, -, -, -, -, -, -, -, -, -, -, -, -, -, -, -, -, -, -, -, -, e0, e1⟩ := idx_facts t
  funext a
  apply Fin.ext
  match a with
  | ⟨0, _⟩ => show win0_12.index t (0 : Fin 2) * 2048 + 1 * p.val = 2048 * t.val + p.val; rw [e0]; omega
  | ⟨1, _⟩ => show win0_12.index t (1 : Fin 2) * 1 + 1 * z.val = z.val; rw [e1]; omega

/-- What point t writes back to the feature array is its band of the reference's feature array. -/
theorem flushed_features (c : Dev nD) (hr : InRange m c) (t : Fin cfg0.N) :
    (dats m 0 c).flushed 11 t = ((cfg0.win 11).blk t).view.read (Elt Ideal) (features m c) := by
  show (cfg0.win 11).cut (grid0.coords t) ((dats m 0 c).after 11 t) = _
  rw [after0_11]
  unfold out0_11
  rw [View.canon_unit_zero hz]
  simp only [View.ld_unit_zero (S := S2048x1) hz, View.ld_unit_zero (S := S2048x128) hz]
  funext y
  obtain ⟨p, q, rfl⟩ : ∃ (p : Fin 2048) (q : Fin 256), y = ix2 p q := ⟨y 0, y 1, eq_ix2 y⟩
  show k0_pay2 (iblk m c 2 t : Vec Ideal S2048x1 .i32) (iblk m c 0 t : Vec Ideal S2048x128 .f32)
    (iblk m c 1 t : Vec Ideal S2048x128 .f32) (ix2 p q) = features m c (((cfg0.win 11).blk t).view.emb (ix2 p q))
  rw [emb_features]
  exact band_rows m c hr t p q

/-- What point t writes back to the weight column is its band of the reference's weights. -/
theorem flushed_weights (c : Dev nD) (hr : InRange m c) (t : Fin cfg0.N) :
    (dats m 0 c).flushed 12 t = ((cfg0.win 12).blk t).view.read (Elt Ideal) (weightCol m c) := by
  show (cfg0.win 12).cut (grid0.coords t) ((dats m 0 c).after 12 t) = _
  rw [after0_12]
  unfold out0_12
  rw [View.canon_unit_zero hz]
  simp only [View.ld_unit_zero (S := S2048x1) hz, View.ld_unit_zero (S := S2048x128) hz, View.ld_unit_zero (S := S256x256) hz,
    View.ld_unit_zero (S := S1x256) hz, View.ld_unit_zero (S := S256x1) hz, View.ld_unit_zero (S := S1x1) hz]
  funext y
  obtain ⟨p, z, rfl⟩ : ∃ (p : Fin 2048) (z : Fin 1), y = ix2 p z := ⟨y 0, y 1, eq_ix2 y⟩
  show k0_pay1 (k0_pay3 (iblk m c 2 t : Vec Ideal S2048x1 .i32) (iblk m c 0 t : Vec Ideal S2048x128 .f32)
      (iblk m c 1 t : Vec Ideal S2048x128 .f32) (iblk m c 3 t : Vec Ideal S256x256 .bf16) (iblk m c 4 t : Vec Ideal S1x256 .f32)
      (iblk m c 5 t : Vec Ideal S256x256 .bf16) (iblk m c 6 t : Vec Ideal S1x256 .f32))
      (iblk m c 7 t : Vec Ideal S256x256 .bf16) (iblk m c 8 t : Vec Ideal S1x256 .f32) (iblk m c 9 t : Vec Ideal S256x1 .bf16)
      (iblk m c 10 t : Vec Ideal S1x1 .f32) (ix2 p z) = weightCol m c (((cfg0.win 12).blk t).view.emb (ix2 p z))
  rw [emb_weights]
  refine (congrFun (KernelBlock.score_block (iblk m c 2 t) (iblk m c 0 t) (iblk m c 1 t) (iblk m c 3 t) (iblk m c 4 t)
    (iblk m c 5 t) (iblk m c 6 t) (iblk m c 7 t) (iblk m c 8 t) (iblk m c 9 t) (iblk m c 10 t)) (ix2 p z)).trans ?_
  have hb1 : (fun k => (iblk m c 4 t : Vec Ideal S1x256 .f32) (ix2 (0 : Fin 1) k))
      = fun k => (m ((c : Thread nD τ).loc main_arg3) : S256.Idx → EReal) (ix1 k) := funext (b1_block m c t)
  have hb2 : (fun k => (iblk m c 6 t : Vec Ideal S1x256 .f32) (ix2 (0 : Fin 1) k))
      = fun k => (m ((c : Thread nD τ).loc main_arg5) : S256.Idx → EReal) (ix1 k) := funext (b2_block m c t)
  have hb3 : (fun k => (iblk m c 8 t : Vec Ideal S1x256 .f32) (ix2 (0 : Fin 1) k))
      = fun k => (m ((c : Thread nD τ).loc main_arg7) : S256.Idx → EReal) (ix1 k) := funext (b3_block m c t)
  rw [hb1, hb2, hb3, w1_block, w2_block, w3_block, wf_block, bf_block]
  refine (Scorer.scorer_row (features m c) _ _ _ _ _ _ _ _ _ p (rowOf t p) (band_rows m c hr t p) z).trans ?_
  have hz0 : z = 0 := Subsingleton.elim _ _
  subst hz0
  exact (ReferenceRead.ref_scores _ _ _ _ _ _ _ _ _ _ _ (rowOf t p)).symm

/-! ## Every index is in one band -/

/-- An index of the feature array is in point t's band iff each coordinate is in the band's range on its axis. -/
theorem mem_band_features (t : Fin cfg0.N) (i : S524288x256.Idx) :
    i ∈ ((cfg0.win 11).blk t).view.set ↔ ∀ a : Fin 2, win0_11.index t a * S2048x256.size a ≤ (i a).val
      ∧ (i a).val < win0_11.index t a * S2048x256.size a + S2048x256.size a := by
  show i ∈ ((View.whole main_v9_0).slice (win0_11.rect t)).set ↔ _
  rw [View.set_slice_whole, Rect.mem_set_unit]
  exact Iff.rfl

theorem mem_band_weights (t : Fin cfg0.N) (i : S524288x1.Idx) :
    i ∈ ((cfg0.win 12).blk t).view.set ↔ ∀ a : Fin 2, win0_12.index t a * S2048x1.size a ≤ (i a).val
      ∧ (i a).val < win0_12.index t a * S2048x1.size a + S2048x1.size a := by
  show i ∈ ((View.whole main_v9_1).slice (win0_12.rect t)).set ↔ _
  rw [View.set_slice_whole, Rect.mem_set_unit]
  exact Iff.rfl

/-- The point whose band holds row n. -/
def pointOf (n : Nat) (h : n < 524288) : Fin cfg0.N := ⟨n / 2048, by rw [show cfg0.N = 256 from N_0]; omega⟩

/-- Row i of the feature array is in the band of point i / 2048. -/
theorem cover_features (i : S524288x256.Idx) :
    ∃ t : Fin cfg0.N, (cfg0.win 11).flush t = true ∧ i ∈ ((cfg0.win 11).blk t).view.set := by
  have hi0 : (i 0).val < 524288 := (i 0).isLt
  have hi1 : (i 1).val < 256 := (i 1).isLt
  refine ⟨pointOf (i 0).val hi0, flush0_11 _, ?_⟩
  rw [mem_band_features]
  obtain ⟨-, -, -, -, -, -, -, -, -, -, -, -, -, -, -, -, -, -, -, -, -, -, e0, e1, -⟩ := idx_facts (pointOf (i 0).val hi0)
  have ht : (pointOf (i 0).val hi0).val = (i 0).val / 2048 := rfl
  intro a
  match a with
  | ⟨0, _⟩ =>
    show win0_11.index (pointOf (i 0).val hi0) (0 : Fin 2) * 2048 ≤ (i 0).val
      ∧ (i 0).val < win0_11.index (pointOf (i 0).val hi0) (0 : Fin 2) * 2048 + 2048
    rw [e0, ht]; omega
  | ⟨1, _⟩ =>
    show win0_11.index (pointOf (i 0).val hi0) (1 : Fin 2) * 256 ≤ (i 1).val
      ∧ (i 1).val < win0_11.index (pointOf (i 0).val hi0) (1 : Fin 2) * 256 + 256
    rw [e1]; omega

theorem cover_weights (i : S524288x1.Idx) :
    ∃ t : Fin cfg0.N, (cfg0.win 12).flush t = true ∧ i ∈ ((cfg0.win 12).blk t).view.set := by
  have hi0 : (i 0).val < 524288 := (i 0).isLt
  have hi1 : (i 1).val < 1 := (i 1).isLt
  refine ⟨pointOf (i 0).val hi0, flush0_12 _, ?_⟩
  rw [mem_band_weights]
  obtain ⟨-, -, -, -, -, -, -, -, -, -, -, -, -, -, -, -, -, -, -, -, -, -, -, -, e0, e1⟩ := idx_facts (pointOf (i 0).val hi0)
  have ht : (pointOf (i 0).val hi0).val = (i 0).val / 2048 := rfl
  intro a
  match a with
  | ⟨0, _⟩ =>
    show win0_12.index (pointOf (i 0).val hi0) (0 : Fin 2) * 2048 ≤ (i 0).val
      ∧ (i 0).val < win0_12.index (pointOf (i 0).val hi0) (0 : Fin 2) * 2048 + 2048
    rw [e0, ht]; omega
  | ⟨1, _⟩ =>
    show win0_12.index (pointOf (i 0).val hi0) (1 : Fin 2) * 1 ≤ (i 1).val
      ∧ (i 1).val < win0_12.index (pointOf (i 0).val hi0) (1 : Fin 2) * 1 + 1
    rw [e1]; omega

/-- After the run the feature array is the reference's feature array … -/
theorem final_features (c : Dev nD) (hr : InRange m c) : (dats m 0 c).arrAt 11 cfg0.N = features m c :=
  (dats m 0 c).arrAt_eq_of_cover 11 (features m c) (fun t _ => flushed_features m c hr t) cover_features

/-- … and the weight column holds the reference's weights. -/
theorem final_weights (c : Dev nD) (hr : InRange m c) : (dats m 0 c).arrAt 12 cfg0.N = weightCol m c :=
  (dats m 0 c).arrAt_eq_of_cover 12 (weightCol m c) (fun t _ => flushed_weights m c hr t) cover_weights

/-- The column read back as a vector is the weights. -/
theorem weightCol_vector (c : Dev nD) :
    shapeCast S524288 (weightCol m c) shapeCasts_S524288x1_S524288 = weights m c := by
  funext i
  obtain ⟨r, rfl⟩ : ∃ r : Fin 524288, i = ix1 r := ⟨i 0, eq_ix1 i⟩
  rw [shapeCast_apply (weightCol m c) shapeCasts_S524288x1_S524288 (ix1 r) (ix2 r (0 : Fin 1))
    (by rw [Shape.rowMajor_val_two, Shape.rowMajor_val_one]; show r.val * 1 + 0 = r.val; omega)]
  rfl

end Cert.Proof.KernelArrays

end
-- ==== Proof.KernelRun.lean ====
/-
  The kernel's run, read: what its three results hold at the end, at the ideal values.

  After the launch the host reshapes the weight column to a vector e and normalises it per graph: the weights are summed
  into their graphs' slots (a scatter-add into zeros), each candidate looks up its graph's total (a negative index counted
  from the end, as in the lookup of the table rows), and divides. The reference ends with the same operations on its own
  weights, and the two weight vectors are equal, so the normalised results are one term.
-/
import proofs.«423160_j50775103373332_1_alg».proof.Proof.KernelArrays
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.Proof.KernelRun

open Cert.KernelIdeal Cert.KernelIdeal.Gen Cert.Proof.KernelArrays

variable (m : (ℓ : Loc nD τ sig) → Buf (Elt Ideal) ℓ) (ρ : Dev nD → PrngReg)

/-- The normalised weights: the reference's, of the kernel's argument arrays. -/
def probs (c : Dev nD) : S524288.Idx → EReal :=
  Cert.ReferenceIdeal.Read.val_main_v39 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The lines after the launch leave the normalised weights in the third result, for any proof data whose weight
    column ends holding the weights. -/
theorem tail_result (dats : (p : Fin _) → (c : Dev nD) → Dat τ (Elt Ideal) Unit ℕ (UR sig nD τ) ℕ (cfgs p) c) (c : Dev nD)
    (hw : (dats 0 c).arrAt 12 (cfgs 0).N = weightCol m c) :
    Pipeline.afterTail₀ cfgs dats 0 (V0 m) [hostOps1] c main_v21 = probs m c := by
  unfold Pipeline.afterTail₀
  simp only [hostOps1, List.flatten_cons, List.flatten_nil, List.append_nil, List.cons_append, List.nil_append]
  after_results_simp
  have h12 : Pipeline.withArrays (cfgs 0).spec c (V0 m c) (fun w => (dats 0 c).arrAt w (cfgs 0).N) (Proc.devRef .tc main_v9_1)
      = weightCol m c := (Pipeline.withArrays_arr spec0 winFacts0.arr_inj c _ _ 12).trans hw
  have h10 : Pipeline.withArrays (cfgs 0).spec c (V0 m c) (fun w => (dats 0 c).arrAt w (cfgs 0).N) (Proc.devRef .tc main_arg10)
      = m ((c : Thread nD τ).loc main_arg10) :=
    (Pipeline.withArrays_of_ne _ c (V0 m c) _ main_arg10
      (by exact (by decide : ∀ w, Pipeline.arrRef spec0 w ≠ main_arg10))).trans (V_main_arg10 m c)
  rw [h12, h10,
    show (fun i => shapeCast main_v10.ty.shape (weightCol m c) shapeCasts_S524288x1_S524288 i) = weights m c
      from weightCol_vector m c]
  rfl

/-- The kernel's run, read: the table as launched, the feature array, the normalised weights, every argument unchanged. -/
theorem run (hr : ∀ c : Dev nD, InRange m c) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v9_0) = features m c
      ∧ r.2.mem ((c.tc : Thread nD τ).loc main_v21) = probs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have a0 : r.2.mem ((c.tc : Thread nD τ).loc main_arg0) = m ((c.tc : Thread nD τ).loc main_arg0) :=
      ((h c).1 0).trans (((dats m 0 c).arrAt_in 0 rfl _).trans ((A_eq m c 0).trans (V_main_arg0 m c)))
    ⟨a0,
      ((h c).1 11).trans (final_features m c (hr c)),
      ((h c).2 main_v21 (Pipeline.mem_restRefs_of main_v21 (by decide) (by decide))).trans
        (tail_result m (dats m) c (final_weights m c (hr c))),
      a0,
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.Proof.KernelRun

end
-- ==== Proof.lean ====
/-
  A candidate scorer with a per-graph softmax, kernel against reference, over the extended reals.

  Each of 524288 candidates carries an index idx[r] into a table of 2048 graph embeddings. Its feature row is the
  table's row idx[r] beside its own embedding; three dense layers with the rectifier and a last dense layer with the
  exponential give its unnormalised weight e[r]; the weights are summed per graph and each is divided by its graph's
  total. The results are the table, the feature array and the normalised weights.

  The kernel looks the table row up as a product with an indicator array (entry (r, b) is 1 where idx[r] = b, else 0),
  which is the table's row idx[r] exactly when idx[r] names a row; the reference looks it up on the host, counting a
  negative index from the end and clamping. So the two agree under the stated domain 0 ≤ idx[r] < 2048, which the
  precondition carries beside the finiteness of the float inputs (finiteness is not used: on the extended reals
  0 · x = 0 and 1 · x = x for every x, and a sum with one non-zero term is that term). The kernel works band by band
  (2048 rows per grid point) and the scorer acts row by row, so each band of the kernel's results is the band of the
  reference's whole-array results; the normalisation after the launch is the reference's, operation for operation.

  No rewrite was applied in idealizing the kernel, so the kernel and its idealization have nothing to preserve.
-/
import proofs.«423160_j50775103373332_1_alg».proof.Defs
import proofs.«423160_j50775103373332_1_alg».proof.Proof.Gen.Kernel
import proofs.«423160_j50775103373332_1_alg».proof.Proof.Gen.Kernel.Skeleton
import proofs.«423160_j50775103373332_1_alg».proof.Proof.Gen.Kernel.Launch
import proofs.«423160_j50775103373332_1_alg».proof.Proof.Gen.Kernel.Points
import proofs.«423160_j50775103373332_1_alg».proof.Proof.Gen.Kernel.Frame
import proofs.«423160_j50775103373332_1_alg».proof.Proof.Gen.KernelIdeal
import proofs.«423160_j50775103373332_1_alg».proof.Proof.Gen.KernelIdeal.Skeleton
import proofs.«423160_j50775103373332_1_alg».proof.Proof.Gen.KernelIdeal.Launch
import proofs.«423160_j50775103373332_1_alg».proof.Proof.Gen.KernelIdeal.Points
import proofs.«423160_j50775103373332_1_alg».proof.Proof.Gen.KernelIdeal.Frame
import proofs.«423160_j50775103373332_1_alg».proof.Proof.Gen.ReferenceIdeal
import proofs.«423160_j50775103373332_1_alg».proof.Proof.Gen.ReferenceIdeal.Run
import proofs.«423160_j50775103373332_1_alg».proof.Proof.Gen.ReferenceIdeal.Read
import proofs.«423160_j50775103373332_1_alg».proof.Proof.Gen.Pre_finite_inputs
import proofs.«423160_j50775103373332_1_alg».proof.Proof.IndexRange
import proofs.«423160_j50775103373332_1_alg».proof.Proof.KernelRun
import Idealize.ShloMosaic.Adequacy
import Idealize.ShloMosaic.Init

noncomputable section

namespace Cert.Proof

open Idealize.ShloMosaic Idealize.ShloMosaic.TcCoe Idealize.SL.Sem Idealize.ShloMosaic.ValueIdx

/-- Each program terminates without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass changed nothing. -/
theorem preserves : Cert.preserves_Kernel_KernelIdeal := trivial

/-- Under the precondition every index word names a row of the table. -/
theorem in_range (m : (ℓ : Loc Cert.KernelIdeal.nD Cert.KernelIdeal.τ Cert.KernelIdeal.sig) → Buf (Elt Ideal) ℓ)
    (hpre : Cert.Pre_KernelIdeal m) (c : Dev Cert.KernelIdeal.nD) : KernelArrays.InRange m c := fun r =>
  IndexRange.idx_in_range _ _ _ _ _ _ _ _ _ _ _ (hpre c) (ix1 r)

/-- From agreeing arguments both idealized programs end with the table, the feature array and the normalised weights. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => KernelArrays.features m c, fun c => KernelRun.probs m c, KernelRun.run m ρ (in_range m hpre), ?_⟩
  refine (θ_run Cert.ReferenceIdeal.defs _ _).mono (fun r h c => ?_) (Cert.ReferenceIdeal.Value.run (F := Ideal) m' ρ')
  obtain ⟨g0, g1, g2, g3, g4, g5, g6, g7, g8, g9, g10⟩ := hagree c
  refine ⟨(h c).1.trans g0, ?_, ?_, (h c).2.2.2⟩
  · refine (h c).2.1.trans ?_
    rw [g0, g1, g10]
    rfl
  · refine (h c).2.2.1.trans ?_
    rw [Cert.ReferenceIdeal.Read.val_main_v39_eq, g0, g1, g2, g3, g4, g5, g6, g7, g8, g9, g10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
